-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x4096 : Shape := ⟨3, ![16, 512, 4096]⟩
abbrev S16x256 : Shape := ⟨2, ![16, 256]⟩
abbrev S512x512 : Shape := ⟨2, ![512, 512]⟩
abbrev S256x256 : Shape := ⟨2, ![256, 256]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S512x512 : S_.BroadcastsInDim S512x512 (![] : Fin 0 → Fin S512x512.rank)
  reducesTo_S512x512_S_d0_1 : S512x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x256 .f32) (main_arg8 : FVec F S512 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S512x256 .f32) (main_arg8 : FVec F S512 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S16x512x4096 .f32) (main_arg1 : FVec F S16x256 .f32) (main_arg2 : FVec F S512x512 .f32) (main_arg3 : FVec F S256x256 .f32) (main_arg4 : FVec F S256 .f32) (main_arg5 : FVec F S256x256 .f32) (main_arg6 : FVec F S256 .f32) (main_arg7 : FVec F S512x256 .f32) (main_arg8 : FVec F S512 .f32) : IVec S_ 1 :=
  let main_v0 : FVec F S16x512x4096 .f32 := Host.absf main_arg0
  let main_cst : FVec F S_ .f32 := constant S_ .f32 0x7F800000#32
  let main_v1 : FVec F S16x512x4096 .f32 := broadcastInDim S16x512x4096 ![] bcast_S_S16x512x4096 main_cst
  let main_v2 : IVec S16x512x4096 1 := cmpf .olt main_v0 main_v1
  let main_c : IVec S_ 1 := constantI S_ 1 1#1
  let main_v3 : IVec S_ 1 := (fun x v => Host.reduce IntOp.andi x v reducesTo_S16x512x4096_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S16x512x4096 : Shape := ⟨3, ![16, 512, 4096]⟩
abbrev S16x256 : Shape := ⟨2, ![16, 256]⟩
abbrev S512x512 : Shape := ⟨2, ![512, 512]⟩
abbrev S256x256 : Shape := ⟨2, ![256, 256]⟩
abbrev S256 : Shape := ⟨1, ![256]⟩
abbrev S512x256 : Shape := ⟨2, ![512, 256]⟩
abbrev S512 : Shape := ⟨1, ![512]⟩
abbrev S1x256 : Shape := ⟨2, ![1, 256]⟩
abbrev S_ : Shape := ⟨0, ![]⟩
abbrev S256x512 : Shape := ⟨2, ![256, 512]⟩
abbrev S16x512 : Shape := ⟨2, ![16, 512]⟩
abbrev S1x512 : Shape := ⟨2, ![1, 512]⟩
abbrev S16x1x512 : Shape := ⟨3, ![16, 1, 512]⟩
abbrev S1x1x512 : Shape := ⟨3, ![1, 1, 512]⟩
abbrev S1x512x1024 : Shape := ⟨3, ![1, 512, 1024]⟩
abbrev S512x1 : Shape := ⟨2, ![512, 1]⟩
abbrev S512x1024 : Shape := ⟨2, ![512, 1024]⟩

abbrev nBuf : Space → Nat
  | .hbm => 47
  | .vmem => 8
  | .smem => 0
  | _ => 0

abbrev bufTy : (tb : Table) → Fin (tcTables nBuf tb) → BufTy
  | .hbm, ⟨0, _⟩ => ⟨S16x512x4096, .f32⟩
  | .hbm, ⟨1, _⟩ => ⟨S16x256, .f32⟩
  | .hbm, ⟨2, _⟩ => ⟨S512x512, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S256x256, .f32⟩
  | .hbm, ⟨10, _⟩ => ⟨S16x256, .f32⟩
  | .hbm, ⟨11, _⟩ => ⟨S1x256, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S16x256, .f32⟩
  | .hbm, ⟨16, _⟩ => ⟨S_, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S256x256, .f32⟩
  | .hbm, ⟨24, _⟩ => ⟨S16x256, .f32⟩
  | .hbm, ⟨25, _⟩ => ⟨S1x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S256x512, .f32⟩
  | .hbm, ⟨38, _⟩ => ⟨S16x512, .f32⟩
  | .hbm, ⟨39, _⟩ => ⟨S1x512, .f32⟩
  | .hbm, ⟨40, _⟩ => ⟨S16x512, .f32⟩
  | .hbm, ⟨41, _⟩ => ⟨S16x512, .f32⟩
  | .hbm, ⟨42, _⟩ => ⟨S_, .f32⟩
  | .hbm, ⟨43, _⟩ => ⟨S16x512, .f32⟩
  | .hbm, ⟨44, _⟩ => ⟨S16x512, .f32⟩
  | .hbm, ⟨45, _⟩ => ⟨S16x1x512, .f32⟩
  | .hbm, ⟨46, _⟩ => ⟨S16x512x4096, .f32⟩
  | .local _ .vmem, ⟨0, _⟩ => ⟨S512x512, .f32⟩
  | .local _ .vmem, ⟨1, _⟩ => ⟨S1x1x512, .f32⟩
  | .local _ .vmem, ⟨2, _⟩ => ⟨S1x1x512, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S512x512, .bf16⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S256x256_S256x256_1_0 : S256x256.Transposes [1, 0] S256x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S512x256_S256x512_1_0 : S512x256.Transposes [1, 0] S256x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  shapeCasts_S16x512_S16x1x512 : S16x512.ShapeCasts S16x1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x512_S512x512_0_0 : ∀ a, (![0, 0] : Fin 2 → Nat) a + S512x512.size a ≤ S512x512.size a
  h_S512x512 : 0 < S512x512.numel
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S16x256_S256x256_S16x256_1_0_0_1_n_n_wf : DotDims.WF S16x256 S256x256 S16x256 [1] [0] [0] [1] [] []
  dot_S16x256_S256x512_S16x512_1_0_0_1_n_n_wf : DotDims.WF S16x256 S256x512 S16x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x512x4096.size a
  hwx0_2 : ∀ i : grid0.Coords, EltTy.bits .f32 = 32 ∨ (Rect.block (s := S16x512x4096) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x512x4096.size a
  hwx0_3 : ∀ i : grid0.Coords, EltTy.bits .f32 = 32 ∨ (Rect.block (s := S16x512x4096) S1x512x1024.size (cc0_transform_3 i) (hinb0_3 i)).WholeWords (EltTy.packing .f32)

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg2) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x4096 : Shape := ⟨3, ![16, 512, 4096]⟩
abbrev S16x256 : Shape := ⟨2, ![16, 256]⟩
abbrev S512x512 : Shape := ⟨2, ![512, 512]⟩
abbrev S256x256 : Shape := ⟨2, ![256, 256]⟩
abbrev S256 : Shape := ⟨1, ![256]⟩
abbrev S512x256 : Shape := ⟨2, ![512, 256]⟩
abbrev S512 : Shape := ⟨1, ![512]⟩
abbrev S1x256 : Shape := ⟨2, ![1, 256]⟩
abbrev S_ : Shape := ⟨0, ![]⟩
abbrev S256x512 : Shape := ⟨2, ![256, 512]⟩
abbrev S16x512 : Shape := ⟨2, ![16, 512]⟩
abbrev S1x512 : Shape := ⟨2, ![1, 512]⟩
abbrev S1x512x512 : Shape := ⟨3, ![1, 512, 512]⟩
abbrev S16x1x512 : Shape := ⟨3, ![16, 1, 512]⟩
abbrev S16x512x512 : Shape := ⟨3, ![16, 512, 512]⟩
abbrev S16x512x1 : Shape := ⟨3, ![16, 512, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x512x4096, .f32⟩
  | .hbm, ⟨1, _⟩ => ⟨S16x256, .f32⟩
  | .hbm, ⟨2, _⟩ => ⟨S512x512, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S256x256, .f32⟩
  | .hbm, ⟨10, _⟩ => ⟨S16x256, .f32⟩
  | .hbm, ⟨11, _⟩ => ⟨S1x256, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S16x256, .f32⟩
  | .hbm, ⟨16, _⟩ => ⟨S_, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S256x256, .f32⟩
  | .hbm, ⟨24, _⟩ => ⟨S16x256, .f32⟩
  | .hbm, ⟨25, _⟩ => ⟨S1x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S256x512, .f32⟩
  | .hbm, ⟨38, _⟩ => ⟨S16x512, .f32⟩
  | .hbm, ⟨39, _⟩ => ⟨S1x512, .f32⟩
  | .hbm, ⟨40, _⟩ => ⟨S16x512, .f32⟩
  | .hbm, ⟨41, _⟩ => ⟨S16x512, .f32⟩
  | .hbm, ⟨42, _⟩ => ⟨S_, .f32⟩
  | .hbm, ⟨43, _⟩ => ⟨S16x512, .f32⟩
  | .hbm, ⟨44, _⟩ => ⟨S16x512, .f32⟩
  | .hbm, ⟨45, _⟩ => ⟨S1x512x512, .f32⟩
  | .hbm, ⟨46, _⟩ => ⟨S16x1x512, .f32⟩
  | .hbm, ⟨47, _⟩ => ⟨S16x512x512, .f32⟩
  | .hbm, ⟨48, _⟩ => ⟨S16x512x512, .f32⟩
  | .hbm, ⟨49, _⟩ => ⟨S16x512x512, .f32⟩
  | .hbm, ⟨50, _⟩ => ⟨S16x512x512, .f32⟩
  | .hbm, ⟨51, _⟩ => ⟨S_, .f32⟩
  | .hbm, ⟨52, _⟩ => ⟨S16x512, .f32⟩
  | .hbm, ⟨53, _⟩ => ⟨S_, .f32⟩
  | .hbm, ⟨54, _⟩ => ⟨S16x512, .f32⟩
  | .hbm, ⟨55, _⟩ => ⟨S16x512, .f32⟩
  | .hbm, ⟨56, _⟩ => ⟨S16x512, .f32⟩
  | .hbm, ⟨57, _⟩ => ⟨S16x512x1, .f32⟩
  | .hbm, ⟨58, _⟩ => ⟨S16x512x512, .f32⟩
  | .hbm, ⟨59, _⟩ => ⟨S16x512x512, .f32⟩
  | .hbm, ⟨60, _⟩ => ⟨S16x512x4096, .f32⟩
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_0 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S512x256_S256x512_1_0 : S512x256.Transposes [1, 0] S256x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S512x512_S1x512x512_1_2 : S512x512.BroadcastsInDim S1x512x512 (![1, 2] : Fin 2 → Fin S1x512x512.rank)
  bcast_S16x512_S16x1x512_0_2 : S16x512.BroadcastsInDim S16x1x512 (![0, 2] : Fin 2 → Fin S16x1x512.rank)
  bcast_S1x512x512_S16x512x512_0_1_2 : S1x512x512.BroadcastsInDim S16x512x512 (![0, 1, 2] : Fin 3 → Fin S16x512x512.rank)
  bcast_S16x1x512_S16x512x512_0_1_2 : S16x1x512.BroadcastsInDim S16x512x512 (![0, 1, 2] : Fin 3 → Fin S16x512x512.rank)
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  dot_S16x256_S256x256_S16x256_1_0_0_1_n_n_wf : DotDims.WF S16x256 S256x256 S16x256 [1] [0] [0] [1] [] []
  dot_S16x256_S256x512_S16x512_1_0_0_1_n_n_wf : DotDims.WF S16x256 S256x512 S16x512 [1] [0] [0] [1] [] []
  dot_S16x512x512_S16x512x4096_S16x512x4096_2_1_1_2_0_0_wf : DotDims.WF S16x512x512 S16x512x4096 S16x512x4096 [2] [1] [1] [2] [0] [0]

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf

class Facts : Prop extends Facts₀ where

variable [Facts]
-- ==== Proof.Spec.lean ====
/-
  The modulated, demodulated 1x1 convolution as ONE function of three arrays.

  For a batch row `b`, an output channel `o` and a position `l`:
    modulated weight   mw b o i = w[o, i] · s[b, i]
    demodulation       dm b o   = rsqrt (∑ i, mw b o i · mw b o i  +  ε)
    result             out[b, o, l] = ∑ i, (mw b o i · dm b o) · x[b, i, l]
  on the extended reals; `ε` is the value of the f32 word both programs carry for `1e-8`, never evaluated.
  `s` is the modulation-scale array `[16, 512]`; how it is computed from the other arguments is the same
  chain of operations in both programs and is not looked into.
-/
import Idealize.ShloMosaic.PureOps.Ideal
import Idealize.ShloMosaic.PureOps.Ideal.Laws
import Idealize.ShloMosaic.Lib.ValueIdx

noncomputable section

namespace Cert.ModConv

open Idealize.ShloMosaic Idealize.ShloMosaic.ValueIdx

/-- The shapes of the three arrays and of the result. -/
abbrev SX : Shape := ⟨3, ![16, 512, 4096]⟩
abbrev SW : Shape := ⟨2, ![512, 512]⟩
abbrev SS : Shape := ⟨2, ![16, 512]⟩

/-- The demodulation's stabiliser: the f32 word of `1e-8` read as an extended real. -/
def eps : EReal := Ideal.ofBits .f32 0x322BCC77#32

/-- The modulated weight of batch row `b`: entry `(o, i)` of the base weight scaled by the row's factor for input channel `i`. -/
def modW (w : SW.Idx → EReal) (s : SS.Idx → EReal) (b : Fin 16) (o i : Fin 512) : EReal :=
  w (ix2 o i) * s (ix2 b i)

/-- The demodulation factor of output channel `o` in batch row `b`: the reciprocal square root of the squared norm of
    the modulated row, stabilised. -/
def demod (w : SW.Idx → EReal) (s : SS.Idx → EReal) (b : Fin 16) (o : Fin 512) : EReal :=
  Ideal.rsqrt ((∑ i : Fin 512, modW w s b o i * modW w s b o i) + eps)

/-- Entry `(o, i)` of the per-sample weight the convolution contracts with. -/
def convW (w : SW.Idx → EReal) (s : SS.Idx → EReal) (b : Fin 16) (o i : Fin 512) : EReal :=
  modW w s b o i * demod w s b o

/-- The result array: per batch row, the per-sample weight times the input's `[512, 4096]` slab. -/
def G (x : SX.Idx → EReal) (w : SW.Idx → EReal) (s : SS.Idx → EReal) : SX.Idx → EReal :=
  fun j => ∑ i : Fin 512, convW w s (j 0) (j 1) i * x (ix3 (j 0) i (j 2))

theorem G_apply (x : SX.Idx → EReal) (w : SW.Idx → EReal) (s : SS.Idx → EReal) (b : Fin 16) (o : Fin 512) (l : Fin 4096) :
    G x w s (ix3 b o l) = ∑ i : Fin 512, convW w s b o i * x (ix3 b i l) := rfl

end Cert.ModConv

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Payload.lean ====
/-
  The two stored values of the kernel body, read at an index on the extended reals.

  • The per-sample weight kept in the scratch: entry `(o, i)` is the weight entry `(o, i)` times the scale of input
    channel `i`, times the reciprocal square root of the stabilised sum over `n` of the squares of such products
    along row `o` (the row sum kept as a column, then spread back over the row).
  • The output tile: entry `(0, o, l)` is the sum over `k` of the scratch entry `(o, k)` times the input tile's
    entry `(0, k, l)` — the matrix product into a zero accumulator; narrowing either operand is the identity here.
-/
import proofs.«138526_j78365973282955_1_alg».proof.Proof.Gen.KernelIdeal.Skeleton
import proofs.«138526_j78365973282955_1_alg».proof.Proof.LibKeepdims
import proofs.«138526_j78365973282955_1_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.ModConv

open Cert.KernelIdeal Cert.KernelIdeal.Gen Idealize.ShloMosaic Idealize.ShloMosaic.ValueIdx

/-- The modulated weight block at `(o, n)`: the weight entry times the scale of input channel `n` (the scale block's one
    row, with its two unit axes dropped, spread over the rows). -/
theorem modBlk_apply (sblk : FVec Ideal S1x1x512 .f32) (wblk : FVec Ideal S512x512 .f32) (o n : Fin 512) :
    mulf wblk (broadcastTo S512x512 (shapeCast S1x512 sblk shapeCasts_S1x1x512_S1x512) broadcasts_S1x512_S512x512) (ix2 o n)
      = wblk (ix2 o n) * sblk (ix3 (0 : Fin 1) (0 : Fin 1) n) := by
  rw [mulf_apply]
  refine congrArg (wblk (ix2 o n) * ·) ?_
  exact (broadcastTo_1b_ab_apply _ _ o n).trans (shapeCast_1ab_ab_apply sblk _ (0 : Fin 1) n)

/-- The scratch's stored value at `(o, i)`, from the scale block and the weight block. -/
theorem scratchPay_apply (sblk : FVec Ideal S1x1x512 .f32) (wblk : FVec Ideal S512x512 .f32) (o i : Fin 512) :
    k0_pay1 (F := Ideal) sblk wblk (ix2 o i)
      = (wblk (ix2 o i) * sblk (ix3 (0 : Fin 1) (0 : Fin 1) i))
        * Ideal.rsqrt ((∑ n : Fin 512, (wblk (ix2 o n) * sblk (ix3 (0 : Fin 1) (0 : Fin 1) n))
              * (wblk (ix2 o n) * sblk (ix3 (0 : Fin 1) (0 : Fin 1) n))) + eps) := by
  unfold k0_pay1
  dsimp only
  rw [shapeCast_self, truncf_apply, mulf_apply, modBlk_apply]
  refine congrArg (wblk (ix2 o i) * sblk (ix3 (0 : Fin 1) (0 : Fin 1) i) * ·) ?_
  refine (Cert.Keepdims.broadcastTo_a1_ab_apply _ _ o i).trans ?_
  show Ideal.rsqrt (_ + _) = _
  refine congrArg (fun z => Ideal.rsqrt (z + eps)) ?_
  refine (Cert.Keepdims.shapeCast_a_a1_apply _ _ o (0 : Fin 1)).trans ?_
  refine (Cert.Keepdims.rowSum_apply _ _ _ _ o).trans ?_
  refine Finset.sum_congr rfl fun n _ => ?_
  rw [mulf_apply, modBlk_apply]

/-! ## The matrix product's operand indices -/

theorem mmLhs_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mmLhs_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem mmRhs_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem mmRhs_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The output tile's stored value at `(u, o, l)`: row `o` of the scratch against column `l` of the input tile. -/
theorem outPay_apply (xblk : FVec Ideal S1x512x1024 .f32) (scr : FVec Ideal S512x512 .bf16) (u : Fin 1) (o : Fin 512) (l : Fin 1024) :
    k0_pay2 (F := Ideal) xblk scr (ix3 u o l) = ∑ k : Fin 512, scr (ix2 o k) * xblk (ix3 (0 : Fin 1) k l) := by
  unfold k0_pay2
  refine (shapeCast_ab_1ab_apply _ _ u o l).trans ?_
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 o l) ((contrEquiv1 dot_S512x512_S512x1024_S512x1024_1_0_0_1_n_n 512 rfl rfl).symm k) = ix2 o k := funext fun a => Fin.ext (by
    match a with
    | ⟨0, _⟩ => exact mmLhs_0 _ _
    | ⟨1, _⟩ => exact (mmLhs_1 _ _).trans hk)
  have er : dot_S512x512_S512x1024_S512x1024_1_0_0_1_n_n.rhsIdx (ix2 o l) ((contrEquiv1 dot_S512x512_S512x1024_S512x1024_1_0_0_1_n_n 512 rfl rfl).symm k) = ix2 k l := funext fun a => Fin.ext (by
    match a with
    | ⟨0, _⟩ => exact (mmRhs_0 _ _).trans hk
    | ⟨1, _⟩ => exact mmRhs_1 _ _)
  rw [el, er, truncf_apply]
  exact congrArg (scr (ix2 o k) * ·) (shapeCast_1ab_ab_apply xblk _ k l)

end Cert.ModConv

end
-- ==== Proof.Pieces.lean ====
/-
  What each control case of the kernel body leaves behind, as the body's stored values.

  At a grid point that begins a batch row (position on the tile axis zero) the body rebuilds the per-sample weight from
  the weight block and the row's scale block, keeps it in the scratch, and multiplies it into the input tile; at any
  other point it multiplies what the scratch already holds into the input tile and leaves the scratch alone.
-/
import proofs.«138526_j78365973282955_1_alg».proof.Proof.Gen.KernelIdeal.Frame
import Idealize.ShloMosaic.Lib.Pipeline.Value
import Idealize.ShloMosaic.Lib.Tactic

set_option maxRecDepth 16384

noncomputable section

namespace Cert.ModConv

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a row-opening point the scratch ends at the rebuilt per-sample weight of the scale block and the weight block. -/
theorem scratch_open (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x512 .bf16) (harg6 : arg6.IsWhole) (hc0 : cond0_0 i)
    (x0 : Vec F S512x512 .f32) (x1 : Vec F S1x1x512 .f32) (x2 : Vec F S1x512x1024 .f32) :
    sout0_A_0 c i arg2 harg2 arg3 harg3 arg4 harg4 arg5 harg5 arg6 harg6 hc0 x0 x1 x2 = k0_pay1 x1 x0 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg3.read_unread, harg2.read_unread, View.ld_unit_zero (S := S1x1x512) hz3,
    View.ld_unit_zero (S := S512x512) hz2]

/-- At a row-opening point the output tile is the product of that rebuilt weight (read back from the scratch it was just
    stored to) with the input tile. -/
theorem out_open (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x512 .bf16) (harg6 : arg6.IsWhole) (hc0 : cond0_0 i)
    (x0 : Vec F S512x512 .f32) (x1 : Vec F S1x1x512 .f32) (x2 : Vec F S1x512x1024 .f32) :
    out0_A_3 c i arg2 harg2 arg3 harg3 arg4 harg4 arg5 harg5 arg6 harg6 hc0 x0 x1 x2 = k0_pay2 x2 (k0_pay1 x1 x0) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3]
  simp only [View.readAt_eq_ld, harg4.read_unread, harg3.read_unread, harg2.read_unread,
    View.readCov_unit_zero (S := S512x512) _ hz2,
    View.ld_unit_zero (S := S1x512x1024) hz3, View.ld_unit_zero (S := S1x1x512) hz3, View.ld_unit_zero (S := S512x512) hz2]

/-- At any other point the output tile is the product of what the scratch holds with the input tile. -/
theorem out_inner (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x512 .bf16) (harg6 : arg6.IsWhole) (hc0 : ¬cond0_0 i)
    (x0 : Vec F S512x512 .f32) (x1 : Vec F S1x1x512 .f32) (x2 : Vec F S1x512x1024 .f32) (xs0 : Vec F S512x512 .bf16) :
    out0_B_3 c i arg2 harg2 arg3 harg3 arg4 harg4 arg5 harg5 arg6 harg6 hc0 x0 x1 x2 xs0 = k0_pay2 x2 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz3]
  simp only [View.readAt_eq_ld, harg4.read_unread, harg6.read_unread, View.ld_unit_zero (S := S1x512x1024) hz3,
    View.ld_unit_zero (S := S512x512) hz2]

end Cert.ModConv

end
-- ==== Proof.Blocks.lean ====
/-
  Where the pipeline's blocks sit in their arrays.

  The grid is 16 batch rows by 4 tiles of 1024 positions, walked row by row: point `t` is tile `t % 4` of batch row
  `t / 4`. At that point the weight window holds the whole weight array, the scale window holds row `t / 4` of the
  scale array, the input window holds positions `1024·(t % 4) …` of slab `t / 4` of the input, and the output window
  the same positions of slab `t / 4` of the result.
-/
import proofs.«138526_j78365973282955_1_alg».proof.Proof.Gen.KernelIdeal.Frame
import Idealize.ShloMosaic.Lib.Pipeline.Value
import Idealize.ShloMosaic.Lib.ValueIdx

set_option maxRecDepth 16384

noncomputable section

namespace Cert.ModConv

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The printed index maps, decided once over the 64 grid points. -/
theorem idx_facts : ∀ t : Fin cfg0.N,
    win0_0.index t (0 : Fin 2) = 0 ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = t.val % 4 :=
  (by decide +kernel : ∀ t : Fin grid0.N, _)

theorem N64 : cfg0.N = 64 := N_0

/-- The batch row of a grid point. -/
def rowOf (t : Fin cfg0.N) : Fin 16 := ⟨t.val / 4, by have := t.isLt; have := N64; omega⟩
/-- Position `l` of the point's tile, as a position of the whole axis. -/
def posOf (t : Fin cfg0.N) (l : Fin 1024) : Fin 4096 := ⟨1024 * (t.val % 4) + l.val, by have := l.isLt; omega⟩

/-- The weight window's block is the weight array. -/
theorem wblk_apply (c : Dev nD) (t : Fin cfg0.N) (o i : Fin 512) :
    (iblk m c 0 t : S512x512.Idx → EReal) (ix2 o i) = (V m c main_arg2 : S512x512.Idx → EReal) (ix2 o i) := by
  show (V m c main_arg2 : S512x512.Idx → EReal) (((cfg0.win 0).blk t).view.emb (ix2 o i)) = _
  refine congrArg (V m c main_arg2 : S512x512.Idx → EReal) (funext fun a => Fin.ext ?_)
  obtain ⟨e0, e1, -⟩ := idx_facts t
  match a with
  | ⟨0, _⟩ => show win0_0.index t (0 : Fin 2) * 512 + 1 * o.val = o.val; omega
  | ⟨1, _⟩ => show win0_0.index t (1 : Fin 2) * 512 + 1 * i.val = i.val; omega

/-- The scale window's block is row `t / 4` of the scale array. -/
theorem sblk_apply (c : Dev nD) (t : Fin cfg0.N) (i : Fin 512) :
    (iblk m c 1 t : S1x1x512.Idx → EReal) (ix3 (0 : Fin 1) (0 : Fin 1) i)
      = (V m c main_v19 : S16x1x512.Idx → EReal) (ix3 (rowOf t) (0 : Fin 1) i) := by
  show (V m c main_v19 : S16x1x512.Idx → EReal) (((cfg0.win 1).blk t).view.emb (ix3 (0 : Fin 1) (0 : Fin 1) i)) = _
  refine congrArg (V m c main_v19 : S16x1x512.Idx → EReal) (funext fun a => Fin.ext ?_)
  obtain ⟨-, -, e0, e1, e2, -⟩ := idx_facts t
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 512 + 1 * i.val = i.val; omega

/-- The input window's block is tile `t % 4` of slab `t / 4` of the input array. -/
theorem xblk_apply (c : Dev nD) (t : Fin cfg0.N) (k : Fin 512) (l : Fin 1024) :
    (iblk m c 2 t : S1x512x1024.Idx → EReal) (ix3 (0 : Fin 1) k l)
      = (V m c main_arg0 : S16x512x4096.Idx → EReal) (ix3 (rowOf t) k (posOf t l)) := by
  show (V m c main_arg0 : S16x512x4096.Idx → EReal) (((cfg0.win 2).blk t).view.emb (ix3 (0 : Fin 1) k l)) = _
  refine congrArg (V m c main_arg0 : S16x512x4096.Idx → EReal) (funext fun a => Fin.ext ?_)
  obtain ⟨-, -, -, -, -, e0, e1, e2, -⟩ := idx_facts t
  match a with
  | ⟨0, _⟩ => show win0_2.index t (0 : Fin 3) * 1 + 1 * 0 = t.val / 4; omega
  | ⟨1, _⟩ => show win0_2.index t (1 : Fin 3) * 512 + 1 * k.val = k.val; omega
  | ⟨2, _⟩ => show win0_2.index t (2 : Fin 3) * 1024 + 1 * l.val = 1024 * (t.val % 4) + l.val; omega

/-- Where entry `(u, o, l)` of the output window's block sits in the result array. -/
theorem oblk_emb (t : Fin cfg0.N) (u : Fin 1) (o : Fin 512) (l : Fin 1024) :
    (((cfg0.win 3).blk t).view.emb (ix3 u o l) : S16x512x4096.Idx) = ix3 (rowOf t) o (posOf t l) := by
  refine funext fun a => Fin.ext ?_
  obtain ⟨-, -, -, -, -, -, -, -, e0, e1, e2⟩ := idx_facts t
  have hu : u.val = 0 := by omega
  match a with
  | ⟨0, _⟩ => show win0_3.index t (0 : Fin 3) * 1 + 1 * u.val = t.val / 4; omega
  | ⟨1, _⟩ => show win0_3.index t (1 : Fin 3) * 512 + 1 * o.val = o.val; omega
  | ⟨2, _⟩ => show win0_3.index t (2 : Fin 3) * 1024 + 1 * l.val = 1024 * (t.val % 4) + l.val; omega

/-- An index of the result array is in point `t`'s output block iff each coordinate is in the block's range on its axis. -/
theorem mem_oblk (t : Fin cfg0.N) (i : S16x512x4096.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v20).slice (win0_3.rect t)).set ↔ _
  rw [View.set_slice_whole, Rect.mem_set_unit]
  exact Iff.rfl

/-- Every index of the result array is in the output block of the point of its batch row and tile. -/
theorem oblk_cover (i : S16x512x4096.Idx) :
    ∃ t : Fin cfg0.N, (cfg0.win 3).flush t = true ∧ i ∈ ((cfg0.win 3).blk t).view.set := by
  have h0 : (i 0).val < 16 := (i 0).isLt
  have h1 : (i 1).val < 512 := (i 1).isLt
  have h2 : (i 2).val < 4096 := (i 2).isLt
  let t : Fin cfg0.N := ⟨4 * (i 0).val + (i 2).val / 1024, by have := N64; omega⟩
  have htv : t.val = 4 * (i 0).val + (i 2).val / 1024 := rfl
  refine ⟨t, flush0_3 t, ?_⟩
  rw [mem_oblk]
  obtain ⟨-, -, -, -, -, -, -, -, e0, e1, e2⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

end Cert.ModConv

end
-- ==== Proof.Carried.lean ====
/-
  The scratch carries one batch row's per-sample weight across that row's four tiles.

  By induction over the grid points: a row-opening point stores the weight rebuilt from the whole weight array and the
  row's scales; each of the three points after it leaves the scratch as it found it, and those points belong to the same
  batch row. So at every point the output tile is that row's weight times the point's input tile, which is the point's
  block of the specification; the output blocks tile the result array, so the array ends at the specification.
-/
import proofs.«138526_j78365973282955_1_alg».proof.Proof.Gen.KernelIdeal.Value
import proofs.«138526_j78365973282955_1_alg».proof.Proof.Spec
import proofs.«138526_j78365973282955_1_alg».proof.Proof.Payload
import proofs.«138526_j78365973282955_1_alg».proof.Proof.Pieces
import proofs.«138526_j78365973282955_1_alg».proof.Proof.Blocks
import Idealize.ShloMosaic.Lib.Pipeline.Value
import Idealize.ShloMosaic.Lib.ValueIdx

set_option maxRecDepth 16384

noncomputable section

namespace Cert.ModConv

open Cert.KernelIdeal Cert.KernelIdeal.Gen Cert.KernelIdeal.Value Idealize.ShloMosaic Idealize.ShloMosaic.TcCoe Idealize.ShloMosaic.ValueIdx Idealize.SL.Sem

variable (m : (ℓ : Loc nD τ sig) → Buf (Elt Ideal) ℓ) (ρ : Dev nD → PrngReg)

/-- The `[16, 1, 512]` scale array read as a `[16, 512]` one. -/
def scaleOf (s3 : S16x1x512.Idx → EReal) : SS.Idx → EReal :=
  fun j => s3 (ix3 (⟨(j 0).val, (j 0).isLt⟩ : Fin 16) (0 : Fin 1) (⟨(j 1).val, (j 1).isLt⟩ : Fin 512))

/-- The specification at the arrays the region finds. -/
def Gk (c : Dev nD) : S16x512x4096.Idx → EReal :=
  G (V m c main_arg0 : S16x512x4096.Idx → EReal) (V m c main_arg2 : S512x512.Idx → EReal) (scaleOf (V m c main_v19 : S16x1x512.Idx → EReal))

/-- Batch row `b`'s per-sample weight, from the arrays the region finds. -/
def rowW (c : Dev nD) (b : Fin 16) : FVec Ideal S512x512 .bf16 :=
  fun j => convW (V m c main_arg2 : S512x512.Idx → EReal) (scaleOf (V m c main_v19 : S16x1x512.Idx → EReal)) b
    (⟨(j 0).val, (j 0).isLt⟩ : Fin 512) (⟨(j 1).val, (j 1).isLt⟩ : Fin 512)

/-- The weight a row-opening point rebuilds is its batch row's per-sample weight. -/
theorem rebuilt_eq (c : Dev nD) (t : Fin cfg0.N) :
    k0_pay1 (F := Ideal) (iblk m c 1 t) (iblk m c 0 t) = rowW m c (rowOf t) := by
  funext j
  obtain ⟨o, i, rfl⟩ : ∃ (o i : Fin 512), j = ix2 o i := ⟨j 0, j 1, eq_ix2 j⟩
  refine (scratchPay_apply (iblk m c 1 t) (iblk m c 0 t) o i).trans ?_
  simp only [wblk_apply m c t, sblk_apply m c t]
  rfl

/-- After every grid point the scratch holds the per-sample weight of the point's batch row. -/
theorem scratch_at (c : Dev nD) : ∀ (n : ℕ) (hn : n < cfg0.N), (outsAt0 m c n hn).2 = rowW m c (rowOf ⟨n, hn⟩)
  | 0, hn => by
    rw [outsAt0_A m c ⟨0, hn⟩ (Nat.zero_mod _)]
    dsimp only
    exact (scratch_open (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩)).trans (rebuilt_eq m c ⟨0, hn⟩)
  | n + 1, hn => by
    by_cases h0 : (n + 1) % 4 = 0
    · rw [outsAt0_A m c ⟨n + 1, hn⟩ h0]
      dsimp only
      exact (scratch_open (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩)).trans (rebuilt_eq m c ⟨n + 1, hn⟩)
    · rw [outsAt0_B m c ⟨n + 1, hn⟩ h0]
      dsimp only
      unfold sout0_B_0
      refine (scratch_at c n (Nat.lt_of_succ_lt hn)).trans (congrArg (rowW m c) (Fin.ext ?_))
      show n / 4 = (n + 1) / 4
      omega

/-- After every grid point the output window's buffer holds the batch row's weight times the point's input tile. -/
theorem out_at (c : Dev nD) (t : Fin cfg0.N) :
    (outsAt0 m c t.val t.isLt).1 = k0_pay2 (F := Ideal) (iblk m c 2 t) (rowW m c (rowOf t)) := by
  by_cases h0 : t.val % 4 = 0
  · rw [outsAt0_A m c t h0]
    dsimp only
    exact (out_open (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
      (congrArg (k0_pay2 (F := Ideal) (iblk m c 2 t)) (rebuilt_eq m c t))
  · rw [outsAt0_B m c t h0]
    dsimp only
    refine (out_inner (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2).trans
      (congrArg (k0_pay2 (F := Ideal) (iblk m c 2 t)) ?_)
    refine (scratch_at m c (t.val - 1) _).trans (congrArg (rowW m c) (Fin.ext ?_))
    show (t.val - 1) / 4 = t.val / 4
    omega

/-- What point `t` writes back is its block of the specification. -/
theorem flushed_eq (c : Dev nD) (t : Fin cfg0.N) :
    (dats m 0 c).flushed 3 t = ((cfg0.win 3).blk t).view.read (Elt Ideal) (Gk m c) := by
  rw [flushed3, out_at]
  refine funext fun (y : S1x512x1024.Idx) => ?_
  obtain ⟨u, o, l, rfl⟩ : ∃ (u : Fin 1) (o : Fin 512) (l : Fin 1024), y = ix3 u o l := ⟨y 0, y 1, y 2, eq_ix3 y⟩
  show k0_pay2 (F := Ideal) (iblk m c 2 t) (rowW m c (rowOf t)) (ix3 u o l) = Gk m c (((cfg0.win 3).blk t).view.emb (ix3 u o l))
  rw [oblk_emb]
  refine (outPay_apply (iblk m c 2 t) (rowW m c (rowOf t)) u o l).trans ?_
  unfold Gk
  rw [G_apply]
  refine Finset.sum_congr rfl fun k _ => ?_
  rw [xblk_apply m c t k l]
  rfl

/-- The result array after the run is the specification at the arrays the region finds. -/
theorem final (c : Dev nD) : (dats m 0 c).arrAt 3 cfg0.N = Gk m c :=
  (dats m 0 c).arrAt_eq_of_cover 3 (Gk m c) (fun t _ => flushed_eq m c t) oblk_cover

end Cert.ModConv

end
-- ==== Proof.Host.lean ====
/-
  The scale array the region finds: the host operations before the launch, composed.
-/
import proofs.«138526_j78365973282955_1_alg».proof.Proof.Gen.KernelIdeal.Frame
import proofs.«138526_j78365973282955_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.ModConv

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The scale array the region finds is the `[16, 512]` modulation-scale array — the chain of host operations both programs
    share, composed, here under the reference's name for it — viewed as `[16, 1, 512]`. -/
theorem scale_entry (c : Dev nD) :
    (V m c main_v19 : S16x1x512.Idx → EReal)
      = shapeCast S16x1x512 (Cert.ReferenceIdeal.Read.val_main_v18 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) shapeCasts_S16x512_S16x1x512 := by
  dsimp only [V]
  simp only [hostOps0, hostOps0_1, hostOps0_2, hostOps0_3, hostOps0_4, List.flatten_cons, List.flatten_nil, List.append_nil, List.cons_append, List.nil_append]
  after_results_simp <;> rfl

end Cert.ModConv

end
-- ==== Proof.KernelValue.lean ====
/-
  The idealized kernel's run, with its result array named: the specification of the input, the base weight and the
  modulation scales as the arguments give them.

  The region finds the input and the base weight as launched (no host operation writes them) and the scale array as the
  shared host chain's result viewed with a unit middle axis; reading that view back at `(b, 0, i)` is the chain's result
  at `(b, i)`.
-/
import proofs.«138526_j78365973282955_1_alg».proof.Proof.Carried
import proofs.«138526_j78365973282955_1_alg».proof.Proof.Host

set_option maxRecDepth 16384

noncomputable section

namespace Cert.ModConv

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- A `[16, 512]` array viewed as `[16, 1, 512]` and read back along the unit axis is itself. -/
theorem scaleOf_cast (S : S16x512.Idx → EReal) (h : S16x512.ShapeCasts S16x1x512) :
    scaleOf (shapeCast S16x1x512 S h) = S := by
  funext j
  obtain ⟨b, i, rfl⟩ : ∃ (b : Fin 16) (i : Fin 512), j = ix2 b i := ⟨j 0, j 1, eq_ix2 j⟩
  show shapeCast S16x1x512 S h (ix3 b (0 : Fin 1) i) = S (ix2 b i)
  exact shapeCast_apply S h _ _ (by
    rw [Shape.rowMajor_val_two, Shape.rowMajor_val_three]
    show b.val * 512 + i.val = (b.val * 1 + 0) * 512 + i.val
    omega)

/-- The modulation scales as the shared host chain composes them from the launch contents. -/
abbrev scalesOf (c : Dev nD) : SS.Idx → EReal :=
  Cert.ReferenceIdeal.Read.val_main_v18 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The specification at the arrays the region finds is the specification at the launch contents. -/
theorem Gk_eq (c : Dev nD) :
    Gk m c = G (m ((c.tc : Thread nD τ).loc main_arg0)) (m ((c.tc : Thread nD τ).loc main_arg2)) (scalesOf m c) := by
  unfold Gk
  rw [scale_entry m c, scaleOf_cast, V_main_arg0 m c, V_main_arg2 m c]

/-- Every weakly fair execution of the idealized kernel ends with the result array at the specification and the
    arguments unchanged. -/
theorem kernel_run : θ_run defs (onTc (τ := τ) (main (F := Ideal))) ⟨m, fun _ => 0, ρ⟩ fun r => ∀ c : Dev nD,
      r.2.mem ((c.tc : Thread nD τ).loc main_v20)
        = G (m ((c.tc : Thread nD τ).loc main_arg0)) (m ((c.tc : Thread nD τ).loc main_arg2)) (scalesOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans ((final m c).trans (Gk_eq m c)), (h c).2⟩)
    (Cert.KernelIdeal.Value.run_blocks m ρ)

end Cert.ModConv

end
-- ==== Proof.RefValue.lean ====
/-
  The reference is the specification.

  Its last stages, read at an index: the base weight spread over the batch axis times the scales spread over the output
  channels is the modulated weight; its squares summed along the input-channel axis from zero, stabilised, under the
  reciprocal square root, spread back, is the demodulation; the batched contraction over the input channels with the
  input is the result. The stages before them (the scales from the other arguments) are left as the reference names them.
-/
import proofs.«138526_j78365973282955_1_alg».proof.Proof.Gen.ReferenceIdeal.Read
import proofs.«138526_j78365973282955_1_alg».proof.Proof.Spec
import Idealize.ShloMosaic.Lib.ValueIdx
import Idealize.ShloMosaic.PureOps.Ideal.Laws

noncomputable section

namespace Cert.ModConv.Ref

open Cert.ReferenceIdeal Cert.ReferenceIdeal.Read Cert.ModConv Idealize.ShloMosaic Idealize.ShloMosaic.ValueIdx

variable (x0 : (⟨S16x512x4096, .f32⟩ : BufTy).Contents (Elt Ideal)) (x1 : (⟨S16x256, .f32⟩ : BufTy).Contents (Elt Ideal))
  (x2 : (⟨S512x512, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S512x256, .f32⟩ : BufTy).Contents (Elt Ideal))
  (x8 : (⟨S512, .f32⟩ : BufTy).Contents (Elt Ideal))

/-- The modulation scales, as the reference composes them. -/
abbrev scales : SS.Idx → EReal := val_main_v18 (F := Ideal) x1 x3 x4 x5 x6 x7 x8

/-- The product of the two spread arrays is the modulated weight. -/
theorem modulated_apply (b : Fin 16) (o i : Fin 512) :
    val_main_v23 (F := Ideal) x1 x2 x3 x4 x5 x6 x7 x8 (ix3 b o i) = modW x2 (scales x1 x3 x4 x5 x6 x7 x8) b o i := by
  rw [val_main_v23_apply, val_main_v21_apply, val_main_v19_apply, val_main_v22_apply, val_main_v20_apply]
  have e1 : idx_main_v19 (idx_main_v21 (ix3 b o i)) = ix2 o i := funext fun a => Fin.ext (by
    match a with
    | ⟨0, _⟩ => rfl
    | ⟨1, _⟩ => rfl)
  have e2 : idx_main_v20 (idx_main_v22 (ix3 b o i)) = ix2 b i := funext fun a => Fin.ext (by
    match a with
    | ⟨0, _⟩ => rfl
    | ⟨1, _⟩ => rfl)
  rw [e1, e2]
  rfl

/-- The stabilised squared norm of a modulated row. -/
theorem normsq_apply (b : Fin 16) (o : Fin 512) :
    val_main_v27 (F := Ideal) x1 x2 x3 x4 x5 x6 x7 x8 (ix2 b o)
      = (∑ i : Fin 512, modW x2 (scales x1 x3 x4 x5 x6 x7 x8) b o i * modW x2 (scales x1 x3 x4 x5 x6 x7 x8) b o i) + eps := by
  rw [val_main_v27_apply, val_main_v25_apply, val_main_v26_apply, val_main_cst_1_apply, val_main_cst_0_apply]
  show (Ideal.ofBits .f32 0x00000000#32 + _) + Ideal.ofBits .f32 0x322BCC77#32 = _
  rw [Ideal.ofBits_zero_f32, zero_add]
  refine congrArg (· + eps) (Finset.sum_congr rfl fun k _ => ?_)
  have e : idx_main_v25 (ix2 b o) k = ix3 b o k := funext fun a => Fin.ext (by
    match a with
    | ⟨0, _⟩ => rfl
    | ⟨1, _⟩ => rfl
    | ⟨2, _⟩ => rfl)
  rw [e, val_main_v24_apply, modulated_apply]
  rfl

/-- The demodulated per-sample weight. -/
theorem weight_apply (b : Fin 16) (o i : Fin 512) :
    val_main_v31 (F := Ideal) x1 x2 x3 x4 x5 x6 x7 x8 (ix3 b o i) = convW x2 (scales x1 x3 x4 x5 x6 x7 x8) b o i := by
  rw [val_main_v31_apply, modulated_apply, val_main_v30_apply, val_main_v29_apply, val_main_v28_apply]
  have e : idx_main_v29 (idx_main_v30 (ix3 b o i)) = ix2 b o := funext fun a => Fin.ext (by
    match a with
    | ⟨0, _⟩ => rfl
    | ⟨1, _⟩ => rfl)
  rw [e, normsq_apply]
  rfl

/-- The reference's result stage is the specification of the input, the base weight and the scales. -/
theorem result_eq :
    val_main_v32 (F := Ideal) x0 x1 x2 x3 x4 x5 x6 x7 x8 = G x0 x2 (scales x1 x3 x4 x5 x6 x7 x8) := by
  funext j
  obtain ⟨b, o, l, rfl⟩ : ∃ (b : Fin 16) (o : Fin 512) (l : Fin 4096), j = ix3 b o l := ⟨j 0, j 1, j 2, eq_ix3 j⟩
  rw [val_main_v32_apply, G_apply]
  refine Finset.sum_congr rfl fun k _ => ?_
  have el : lidx_main_v32 (ix3 b o l) k = ix3 b o k := funext fun a => Fin.ext (by
    match a with
    | ⟨0, _⟩ => rfl
    | ⟨1, _⟩ => rfl
    | ⟨2, _⟩ => rfl)
  have er : ridx_main_v32 (ix3 b o l) k = ix3 b k l := funext fun a => Fin.ext (by
    match a with
    | ⟨0, _⟩ => rfl
    | ⟨1, _⟩ => rfl
    | ⟨2, _⟩ => rfl)
  rw [el, er, weight_apply]

end Cert.ModConv.Ref

end
-- ==== Proof.lean ====
/-
  A 1x1 convolution whose weight is modulated and demodulated per sample, against its jnp reference.

  Both programs first compute the same modulation scales `s[b, i]` from the time embedding by the same three-layer
  perceptron on the host; that chain is never opened. Then, for a batch row `b`, an output channel `o` and a position `l`,
      out[b, o, l] = ∑ i, (w[o, i] · s[b, i]) · rsqrt (∑ n, (w[o, n] · s[b, n])² + ε) · x[b, i, l].
  The reference builds the `[16, 512, 512]` per-sample weight whole and contracts it with the input in one batched
  product. The kernel walks a 16 × 4 grid, row by row: at the first of a row's four tiles it rebuilds the row's
  `[512, 512]` weight into a scratch (the row sum kept as a column and spread back), and at each tile multiplies the
  scratch into the `[512, 1024]` input tile with a zero accumulator. On the extended reals narrowing to bf16 is the
  identity, the lane sum and the host's sum from zero are the same finite sum, the matrix product into zero and the
  host's contraction are the same finite sum, and the two reciprocal square roots are one function: the two results are
  the same term, index by index, and no law of arithmetic beyond `0 + a = a` is used, so the inputs' finiteness is
  never opened.

  • the kernel's stored values at an index: Proof/Payload.lean (over Proof/LibKeepdims.lean);
  • what each control case leaves: Proof/Pieces.lean; where the blocks sit: Proof/Blocks.lean;
  • the scratch carried along a batch row, the output blocks, the result array: Proof/Carried.lean;
  • the scale array the region finds: Proof/Host.lean; the kernel's run with its result named: Proof/KernelValue.lean;
  • the reference read at an index: Proof/RefValue.lean; the function both sides equal: Proof/Spec.lean.
-/
import proofs.«138526_j78365973282955_1_alg».proof.Defs
import proofs.«138526_j78365973282955_1_alg».proof.Proof.Gen.Kernel
import proofs.«138526_j78365973282955_1_alg».proof.Proof.Gen.Kernel.Frame
import proofs.«138526_j78365973282955_1_alg».proof.Proof.Gen.KernelIdeal
import proofs.«138526_j78365973282955_1_alg».proof.Proof.Gen.KernelIdeal.Frame
import proofs.«138526_j78365973282955_1_alg».proof.Proof.Gen.KernelIdeal.Value
import proofs.«138526_j78365973282955_1_alg».proof.Proof.Gen.ReferenceIdeal
import proofs.«138526_j78365973282955_1_alg».proof.Proof.Gen.ReferenceIdeal.Run
import proofs.«138526_j78365973282955_1_alg».proof.Proof.Gen.ReferenceIdeal.Read
import proofs.«138526_j78365973282955_1_alg».proof.Proof.Gen.Pre_finite_inputs
import proofs.«138526_j78365973282955_1_alg».proof.Proof.KernelValue
import proofs.«138526_j78365973282955_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the nine arguments both programs end with the specification of the input, the base
    weight and the scales the shared host chain composes from the other seven: the kernel by its carried scratch and
    tiled output, the reference by its stages read at an index. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.ModConv.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v32_eq, Cert.ModConv.Ref.result_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
